-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x81 : Shape := ⟨2, ![500000, 81]⟩
abbrev S500000x2 : Shape := ⟨2, ![500000, 2]⟩
abbrev S81x128 : Shape := ⟨2, ![81, 128]⟩
abbrev S_ : Shape := ⟨0, ![]⟩

class Facts : Prop where
  bcast_S_S500000x81 : S_.BroadcastsInDim S500000x81 (![] : Fin 0 → Fin S500000x81.rank)
  reducesTo_S500000x81_S_d0_1 : S500000x81.ReducesTo [0, 1] S_
  h_S_ : 0 < S_.numel
  bcast_S_S81x128 : S_.BroadcastsInDim S81x128 (![] : Fin 0 → Fin S81x128.rank)
  reducesTo_S81x128_S_d0_1 : S81x128.ReducesTo [0, 1] S_

variable [Facts]

def fn {F : FTy → Type} [FloatOps F] (main_arg0 : FVec F S500000x81 .f32) (main_arg1 : IVec S500000x2 32) (main_arg2 : FVec F S81x128 .f32) (main_arg3 : FVec F S81x128 .f32) : IVec S_ 1 :=
  let main_v0 : FVec F S500000x81 .f32 := Host.absf main_arg0
  let main_cst : FVec F S_ .f32 := constant S_ .f32 0x7F800000#32
  let main_v1 : FVec F S500000x81 .f32 := broadcastInDim S500000x81 ![] bcast_S_S500000x81 main_cst
  let main_v2 : IVec S500000x81 1 := cmpf .olt main_v0 main_v1
  let main_c : IVec S_ 1 := constantI S_ 1 1#1
  let main_v3 : IVec S_ 1 := (fun x v => Host.reduce IntOp.andi x v reducesTo_S500000x81_S_d0_1 h_S_) main_v2 main_c
  let main_v4 : FVec F S81x128 .f32 := Host.absf main_arg2
  let main_cst_0 : FVec F S_ .f32 := constant S_ .f32 0x7F800000#32
  let main_v5 : FVec F S81x128 .f32 := broadcastInDim S81x128 ![] bcast_S_S81x128 main_cst_0
  let main_v6 : IVec S81x128 1 := cmpf .olt main_v4 main_v5
  let main_c_1 : IVec S_ 1 := constantI S_ 1 1#1
  let main_v7 : IVec S_ 1 := (fun x v => Host.reduce IntOp.andi x v reducesTo_S81x128_S_d0_1 h_S_) main_v6 main_c_1
  let main_v8 : IVec S_ 1 := andi main_v3 main_v7
  let main_v9 : FVec F S81x128 .f32 := Host.absf main_arg3
  let main_cst_2 : FVec F S_ .f32 := constant S_ .f32 0x7F800000#32
  let main_v10 : FVec F S81x128 .f32 := broadcastInDim S81x128 ![] bcast_S_S81x128 main_cst_2
  let main_v11 : IVec S81x128 1 := cmpf .olt main_v9 main_v10
  let main_c_3 : IVec S_ 1 := constantI S_ 1 1#1
  let main_v12 : IVec S_ 1 := (fun x v => Host.reduce IntOp.andi x v reducesTo_S81x128_S_d0_1 h_S_) main_v11 main_c_3
  let main_v13 : IVec S_ 1 := andi main_v8 main_v12
  main_v13
-- ==== Kernel.lean ====
abbrev S500000x81 : Shape := ⟨2, ![500000, 81]⟩
abbrev S500000x2 : Shape := ⟨2, ![500000, 2]⟩
abbrev S81x128 : Shape := ⟨2, ![81, 128]⟩
abbrev S_ : Shape := ⟨0, ![]⟩
abbrev S500000x2x1 : Shape := ⟨3, ![500000, 2, 1]⟩
abbrev S500000x2x81 : Shape := ⟨3, ![500000, 2, 81]⟩
abbrev S500000x128 : Shape := ⟨2, ![500000, 128]⟩
abbrev S2000x81 : Shape := ⟨2, ![2000, 81]⟩
abbrev S2000x2x81 : Shape := ⟨3, ![2000, 2, 81]⟩
abbrev S2000x2 : Shape := ⟨2, ![2000, 2]⟩
abbrev S2000x128 : Shape := ⟨2, ![2000, 128]⟩
abbrev S2000x3 : Shape := ⟨2, ![2000, 3]⟩
abbrev S2000x78 : Shape := ⟨2, ![2000, 78]⟩
abbrev S2000x2x3 : Shape := ⟨3, ![2000, 2, 3]⟩
abbrev S2000x2x78 : Shape := ⟨3, ![2000, 2, 78]⟩
abbrev S2000x1x3 : Shape := ⟨3, ![2000, 1, 3]⟩
abbrev S2000x1x78 : Shape := ⟨3, ![2000, 1, 78]⟩
abbrev S2000x2x1 : Shape := ⟨3, ![2000, 2, 1]⟩
abbrev S4000x81 : Shape := ⟨2, ![4000, 81]⟩
abbrev S4000x128 : Shape := ⟨2, ![4000, 128]⟩
abbrev S2000x2x128 : Shape := ⟨3, ![2000, 2, 128]⟩

abbrev nBuf : Space → Nat
  | .hbm => 30
  | .vmem => 10
  | .smem => 0
  | _ => 0

abbrev bufTy : (tb : Table) → Fin (tcTables nBuf tb) → BufTy
  | .hbm, ⟨0, _⟩ => ⟨S500000x81, .f32⟩
  | .hbm, ⟨1, _⟩ => ⟨S500000x2, .i32⟩
  | .hbm, ⟨2, _⟩ => ⟨S81x128, .f32⟩
  | .hbm, ⟨3, _⟩ => ⟨S81x128, .f32⟩
  | .hbm, ⟨4, _⟩ => ⟨S_, .i32⟩
  | .hbm, ⟨5, _⟩ => ⟨S500000x2, .i32⟩
  | .hbm, ⟨6, _⟩ => ⟨S500000x2, .i1⟩
  | .hbm, ⟨7, _⟩ => ⟨S_, .i32⟩
  | .hbm, ⟨8, _⟩ => ⟨S500000x2, .i32⟩
  | .hbm, ⟨9, _⟩ => ⟨S500000x2, .i1⟩
  | .hbm, ⟨10, _⟩ => ⟨S500000x2, .i1⟩
  | .hbm, ⟨11, _⟩ => ⟨S500000x2, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S500000x2, .i32⟩
  | .hbm, ⟨16, _⟩ => ⟨S500000x2, .i32⟩
  | .hbm, ⟨17, _⟩ => ⟨S_, .i32⟩
  | .hbm, ⟨18, _⟩ => ⟨S500000x2, .i32⟩
  | .hbm, ⟨19, _⟩ => ⟨S500000x2, .i32⟩
  | .hbm, ⟨20, _⟩ => ⟨S_, .i32⟩
  | .hbm, ⟨21, _⟩ => ⟨S500000x2, .i32⟩
  | .hbm, ⟨22, _⟩ => ⟨S500000x2, .i1⟩
  | .hbm, ⟨23, _⟩ => ⟨S_, .i32⟩
  | .hbm, ⟨24, _⟩ => ⟨S500000x2, .i32⟩
  | .hbm, ⟨25, _⟩ => ⟨S500000x2, .i32⟩
  | .hbm, ⟨26, _⟩ => ⟨S500000x2, .i32⟩
  | .hbm, ⟨27, _⟩ => ⟨S500000x2x1, .i32⟩
  | .hbm, ⟨28, _⟩ => ⟨S500000x2x81, .f32⟩
  | .hbm, ⟨29, _⟩ => ⟨S500000x128, .f32⟩
  | .local _ .vmem, ⟨0, _⟩ => ⟨S2000x81, .f32⟩
  | .local _ .vmem, ⟨1, _⟩ => ⟨S2000x81, .f32⟩
  | .local _ .vmem, ⟨2, _⟩ => ⟨S2000x2x81, .f32⟩
  | .local _ .vmem, ⟨3, _⟩ => ⟨S2000x2x81, .f32⟩
  | .local _ .vmem, ⟨4, _⟩ => ⟨S2000x2, .f32⟩
  | .local _ .vmem, ⟨5, _⟩ => ⟨S2000x2, .f32⟩
  | .local _ .vmem, ⟨6, _⟩ => ⟨S81x128, .f32⟩
  | .local _ .vmem, ⟨7, _⟩ => ⟨S81x128, .f32⟩
  | .local _ .vmem, ⟨8, _⟩ => ⟨S2000x128, .f32⟩
  | .local _ .vmem, ⟨9, _⟩ => ⟨S2000x128, .f32⟩
  | _, _ => ⟨S500000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S81x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S81x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  inb_S2000x81_S2000x81_0_0 : ∀ a, (![0, 0] : Fin 2 → Nat) a + S2000x81.size a ≤ S2000x81.size a
  h_S2000x81 : 0 < S2000x81.numel
  inb_S2000x2x81_S2000x2x81_0_0_0 : ∀ a, (![0, 0, 0] : Fin 3 → Nat) a + S2000x2x81.size a ≤ S2000x2x81.size a
  h_S2000x2x81 : 0 < S2000x2x81.numel
  shapeCasts_S2000x2x81_S2000x2x81 : S2000x2x81.ShapeCasts S2000x2x81
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x81_o0_0_S2000x3 : S2000x81.Slices ![0, 0] S2000x3
  slices_S2000x81_o0_3_S2000x78 : S2000x81.Slices ![0, 3] S2000x78
  slices_S2000x2x81_o0_0_0_S2000x2x3 : S2000x2x81.Slices ![0, 0, 0] S2000x2x3
  slices_S2000x2x81_o0_0_3_S2000x2x78 : S2000x2x81.Slices ![0, 0, 3] S2000x2x78
  shapeCasts_S2000x3_S2000x1x3 : S2000x3.ShapeCasts S2000x1x3
  broadcasts_S2000x1x3_S2000x2x3 : S2000x1x3.Broadcasts S2000x2x3
  reduces_S2000x2x3_S2000x2 : S2000x2x3.Reduces [2] S2000x2
  shapeCasts_S2000x78_S2000x1x78 : S2000x78.ShapeCasts S2000x1x78
  broadcasts_S2000x1x78_S2000x2x78 : S2000x1x78.Broadcasts S2000x2x78
  concatenates_S2000x2x3_S2000x2x78_S2000x2x81_d2 : Shape.Concatenates [S2000x2x3, S2000x2x78] S2000x2x81 2
  shapeCasts_S2000x2_S2000x2x1 : S2000x2.ShapeCasts S2000x2x1
  broadcasts_S2000x2x1_S2000x2x81 : S2000x2x1.Broadcasts S2000x2x81
  shapeCasts_S2000x2x81_S4000x81 : S2000x2x81.ShapeCasts S4000x81
  bitsLt_bf16_f32 : FTy.bits .bf16 < FTy.bits .f32
  inb_S81x128_S81x128_0_0 : ∀ a, (![0, 0] : Fin 2 → Nat) a + S81x128.size a ≤ S81x128.size a
  h_S81x128 : 0 < S81x128.numel
  shapeCasts_S4000x128_S2000x2x128 : S4000x128.ShapeCasts S2000x2x128
  reduces_S2000x2x128_S2000x128 : S2000x2x128.Reduces [1] S2000x128
  inb_S2000x128_S2000x128_0_0 : ∀ a, (![0, 0] : Fin 2 → Nat) a + S2000x128.size a ≤ S2000x128.size a
  h_S2000x128 : 0 < S2000x128.numel
  gather_S500000x81_S500000x2x1_S500000x2x81_2_0_n_n_0_2_181_wf : GatherDims.WF S500000x81 S500000x2x1 S500000x2x81 [2] [0] [] [0] [] 2 ![1, 81]
  dot_S4000x81_S81x128_S4000x128_1_0_0_1_n_n_wf : DotDims.WF S4000x81 S81x128 S4000x128 [1] [0] [0] [1] [] []
  dot_S2000x81_S81x128_S2000x128_1_0_0_1_n_n_wf : DotDims.WF S2000x81 S81x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x81.size a ≤ S500000x81.size a
  hwx0_0 : ∀ i : grid0.Coords, EltTy.bits .f32 = 32 ∨ (Rect.block (s := S500000x81) S2000x81.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2x81.size a ≤ S500000x2x81.size a
  hwx0_1 : ∀ i : grid0.Coords, EltTy.bits .f32 = 32 ∨ (Rect.block (s := S500000x2x81) S2000x2x81.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S500000x2.size a
  hwx0_2 : ∀ i : grid0.Coords, EltTy.bits .f32 = 32 ∨ (Rect.block (s := S500000x2) S2000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x128.size a ≤ S81x128.size a
  hwx0_3 : ∀ i : grid0.Coords, EltTy.bits .f32 = 32 ∨ (Rect.block (s := S81x128) S81x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S81x128.size a ≤ S81x128.size a
  hwx0_4 : ∀ i : grid0.Coords, EltTy.bits .f32 = 32 ∨ (Rect.block (s := S81x128) S81x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S500000x128.size a
  hwx0_5 : ∀ i : grid0.Coords, EltTy.bits .f32 = 32 ∨ (Rect.block (s := S500000x128) S2000x128.size (cc0_transform_5 i) (hinb0_5 i)).WholeWords (EltTy.packing .f32)

variable [Facts₀]

def gather_S500000x81_S500000x2x1_S500000x2x81_2_0_n_n_0_2_181 : GatherDims S500000x81 S500000x2x1 S500000x2x81 where
  offsetDims := [2]
  collapsedSliceDims := [0]
  operandBatchingDims := []
  startIndicesBatchingDims := []
  startIndexMap := [0]
  indexVectorDim := 2
  sliceSizes := ![1, 81]
  wf := gather_S500000x81_S500000x2x1_S500000x2x81_2_0_n_n_0_2_181_wf
def dot_S4000x81_S81x128_S4000x128_1_0_0_1_n_n : DotDims S4000x81 S81x128 S4000x128 where
  lhsContracting := [1]
  rhsContracting := [0]
  lhsNonContracting := [0]
  rhsNonContracting := [1]
  lhsBatch := []
  rhsBatch := []
  wf := dot_S4000x81_S81x128_S4000x128_1_0_0_1_n_n_wf
def dot_S2000x81_S81x128_S2000x128_1_0_0_1_n_n : DotDims S2000x81 S81x128 S2000x128 where
  lhsContracting := [1]
  rhsContracting := [0]
  lhsNonContracting := [0]
  rhsNonContracting := [1]
  lhsBatch := []
  rhsBatch := []
  wf := dot_S2000x81_S81x128_S2000x128_1_0_0_1_n_n_wf

abbrev win0_0 : Pipeline.Window sig grid0 :=
  Pipeline.Window.ofSpec (Memref.whole main_arg0) S2000x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x2x81.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S81x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S81x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x81 : Shape := ⟨2, ![500000, 81]⟩
abbrev S500000x2 : Shape := ⟨2, ![500000, 2]⟩
abbrev S81x128 : Shape := ⟨2, ![81, 128]⟩
abbrev S_ : Shape := ⟨0, ![]⟩
abbrev S500000x2x1 : Shape := ⟨3, ![500000, 2, 1]⟩
abbrev S500000x2x81 : Shape := ⟨3, ![500000, 2, 81]⟩
abbrev S500000x1x81 : Shape := ⟨3, ![500000, 1, 81]⟩
abbrev S500000x1x3 : Shape := ⟨3, ![500000, 1, 3]⟩
abbrev S500000x2x3 : Shape := ⟨3, ![500000, 2, 3]⟩
abbrev S500000x1x78 : Shape := ⟨3, ![500000, 1, 78]⟩
abbrev S500000x2x78 : Shape := ⟨3, ![500000, 2, 78]⟩
abbrev S500000x2x128 : Shape := ⟨3, ![500000, 2, 128]⟩
abbrev S500000x128 : Shape := ⟨2, ![500000, 128]⟩

abbrev nBuf : Space → Nat
  | .hbm => 71
  | .vmem => 0
  | .smem => 0
  | _ => 0

abbrev bufTy : (tb : Table) → Fin (tcTables nBuf tb) → BufTy
  | .hbm, ⟨0, _⟩ => ⟨S500000x81, .f32⟩
  | .hbm, ⟨1, _⟩ => ⟨S500000x2, .i32⟩
  | .hbm, ⟨2, _⟩ => ⟨S81x128, .f32⟩
  | .hbm, ⟨3, _⟩ => ⟨S81x128, .f32⟩
  | .hbm, ⟨4, _⟩ => ⟨S_, .i32⟩
  | .hbm, ⟨5, _⟩ => ⟨S500000x2, .i32⟩
  | .hbm, ⟨6, _⟩ => ⟨S500000x2, .i1⟩
  | .hbm, ⟨7, _⟩ => ⟨S_, .i32⟩
  | .hbm, ⟨8, _⟩ => ⟨S500000x2, .i32⟩
  | .hbm, ⟨9, _⟩ => ⟨S500000x2, .i1⟩
  | .hbm, ⟨10, _⟩ => ⟨S500000x2, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S500000x2, .i32⟩
  | .hbm, ⟨15, _⟩ => ⟨S500000x2, .i32⟩
  | .hbm, ⟨16, _⟩ => ⟨S_, .i32⟩
  | .hbm, ⟨17, _⟩ => ⟨S500000x2, .i32⟩
  | .hbm, ⟨18, _⟩ => ⟨S500000x2, .i32⟩
  | .hbm, ⟨19, _⟩ => ⟨S_, .i32⟩
  | .hbm, ⟨20, _⟩ => ⟨S500000x2, .i32⟩
  | .hbm, ⟨21, _⟩ => ⟨S500000x2, .i1⟩
  | .hbm, ⟨22, _⟩ => ⟨S_, .i32⟩
  | .hbm, ⟨23, _⟩ => ⟨S500000x2, .i32⟩
  | .hbm, ⟨24, _⟩ => ⟨S500000x2, .i32⟩
  | .hbm, ⟨25, _⟩ => ⟨S500000x2, .i32⟩
  | .hbm, ⟨26, _⟩ => ⟨S500000x2x1, .i32⟩
  | .hbm, ⟨27, _⟩ => ⟨S500000x2x81, .f32⟩
  | .hbm, ⟨28, _⟩ => ⟨S500000x1x81, .f32⟩
  | .hbm, ⟨29, _⟩ => ⟨S500000x1x3, .f32⟩
  | .hbm, ⟨30, _⟩ => ⟨S500000x2x3, .f32⟩
  | .hbm, ⟨31, _⟩ => ⟨S500000x2x3, .f32⟩
  | .hbm, ⟨32, _⟩ => ⟨S500000x2x3, .f32⟩
  | .hbm, ⟨33, _⟩ => ⟨S500000x2x3, .f32⟩
  | .hbm, ⟨34, _⟩ => ⟨S_, .f32⟩
  | .hbm, ⟨35, _⟩ => ⟨S500000x2, .f32⟩
  | .hbm, ⟨36, _⟩ => ⟨S500000x2, .f32⟩
  | .hbm, ⟨37, _⟩ => ⟨S500000x2x3, .f32⟩
  | .hbm, ⟨38, _⟩ => ⟨S500000x1x78, .f32⟩
  | .hbm, ⟨39, _⟩ => ⟨S500000x2x78, .f32⟩
  | .hbm, ⟨40, _⟩ => ⟨S500000x2x78, .f32⟩
  | .hbm, ⟨41, _⟩ => ⟨S500000x2x78, .f32⟩
  | .hbm, ⟨42, _⟩ => ⟨S500000x2x81, .f32⟩
  | .hbm, ⟨43, _⟩ => ⟨S_, .f32⟩
  | .hbm, ⟨44, _⟩ => ⟨S500000x2, .f32⟩
  | .hbm, ⟨45, _⟩ => ⟨S500000x2, .i1⟩
  | .hbm, ⟨46, _⟩ => ⟨S_, .f32⟩
  | .hbm, ⟨47, _⟩ => ⟨S500000x2, .f32⟩
  | .hbm, ⟨48, _⟩ => ⟨S500000x2, .f32⟩
  | .hbm, ⟨49, _⟩ => ⟨S500000x2, .f32⟩
  | .hbm, ⟨50, _⟩ => ⟨S_, .f32⟩
  | .hbm, ⟨51, _⟩ => ⟨S500000x2, .f32⟩
  | .hbm, ⟨52, _⟩ => ⟨S500000x2, .f32⟩
  | .hbm, ⟨53, _⟩ => ⟨S_, .f32⟩
  | .hbm, ⟨54, _⟩ => ⟨S_, .f32⟩
  | .hbm, ⟨55, _⟩ => ⟨S500000x2, .f32⟩
  | .hbm, ⟨56, _⟩ => ⟨S500000x2, .f32⟩
  | .hbm, ⟨57, _⟩ => ⟨S500000x2x1, .f32⟩
  | .hbm, ⟨58, _⟩ => ⟨S500000x2x81, .f32⟩
  | .hbm, ⟨59, _⟩ => ⟨S500000x2x81, .f32⟩
  | .hbm, ⟨60, _⟩ => ⟨S500000x2x128, .f32⟩
  | .hbm, ⟨61, _⟩ => ⟨S500000x2x1, .i1⟩
  | .hbm, ⟨62, _⟩ => ⟨S_, .f32⟩
  | .hbm, ⟨63, _⟩ => ⟨S_, .f32⟩
  | .hbm, ⟨64, _⟩ => ⟨S500000x2x128, .i1⟩
  | .hbm, ⟨65, _⟩ => ⟨S500000x2x128, .f32⟩
  | .hbm, ⟨66, _⟩ => ⟨S500000x2x128, .f32⟩
  | .hbm, ⟨67, _⟩ => ⟨S500000x128, .f32⟩
  | .hbm, ⟨68, _⟩ => ⟨S_, .f32⟩
  | .hbm, ⟨69, _⟩ => ⟨S500000x128, .f32⟩
  | .hbm, ⟨70, _⟩ => ⟨S500000x128, .f32⟩
  | _, _ => ⟨S500000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]

class Facts₀ : Prop where
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  bcast_S500000x81_S500000x1x81_0_2 : S500000x81.BroadcastsInDim S500000x1x81 (![0, 2] : Fin 2 → Fin S500000x1x81.rank)
  slices_S500000x1x81_S500000x1x3_0_0_0 : S500000x1x81.Slices ![0, 0, 0] S500000x1x3
  slices_S500000x2x81_S500000x2x3_0_0_0 : S500000x2x81.Slices ![0, 0, 0] S500000x2x3
  bcast_S500000x1x3_S500000x2x3_0_1_2 : S500000x1x3.BroadcastsInDim S500000x2x3 (![0, 1, 2] : Fin 3 → Fin S500000x2x3.rank)
  reducesTo_S500000x2x3_S500000x2_d2 : S500000x2x3.ReducesTo [2] S500000x2
  h_S_ : 0 < S_.numel
  slices_S500000x1x81_S500000x1x78_0_0_3 : S500000x1x81.Slices ![0, 0, 3] S500000x1x78
  slices_S500000x2x81_S500000x2x78_0_0_3 : S500000x2x81.Slices ![0, 0, 3] S500000x2x78
  bcast_S500000x1x78_S500000x2x78_0_1_2 : S500000x1x78.BroadcastsInDim S500000x2x78 (![0, 1, 2] : Fin 3 → Fin S500000x2x78.rank)
  concatenates_S500000x2x3_S500000x2x78_S500000x2x81_d2 : Shape.Concatenates [S500000x2x3, S500000x2x78] S500000x2x81 2
  bcast_S500000x2x1_S500000x2x81_0_1_2 : S500000x2x1.BroadcastsInDim S500000x2x81 (![0, 1, 2] : Fin 3 → Fin S500000x2x81.rank)
  bcast_S500000x2x1_S500000x2x128_0_1_2 : S500000x2x1.BroadcastsInDim S500000x2x128 (![0, 1, 2] : Fin 3 → Fin S500000x2x128.rank)
  bcast_S_S500000x2x128 : S_.BroadcastsInDim S500000x2x128 (![] : Fin 0 → Fin S500000x2x128.rank)
  reducesTo_S500000x2x128_S500000x128_d1 : S500000x2x128.ReducesTo [1] S500000x128
  gather_S500000x81_S500000x2x1_S500000x2x81_2_0_n_n_0_2_181_wf : GatherDims.WF S500000x81 S500000x2x1 S500000x2x81 [2] [0] [] [0] [] 2 ![1, 81]
  dot_S500000x2x81_S81x128_S500000x2x128_2_0_01_1_n_n_wf : DotDims.WF S500000x2x81 S81x128 S500000x2x128 [2] [0] [0, 1] [1] [] []
  dot_S500000x81_S81x128_S500000x128_1_0_0_1_n_n_wf : DotDims.WF S500000x81 S81x128 S500000x128 [1] [0] [0] [1] [] []

variable [Facts₀]

def gather_S500000x81_S500000x2x1_S500000x2x81_2_0_n_n_0_2_181 : GatherDims S500000x81 S500000x2x1 S500000x2x81 where
  offsetDims := [2]
  collapsedSliceDims := [0]
  operandBatchingDims := []
  startIndicesBatchingDims := []
  startIndexMap := [0]
  indexVectorDim := 2
  sliceSizes := ![1, 81]
  wf := gather_S500000x81_S500000x2x1_S500000x2x81_2_0_n_n_0_2_181_wf
def dot_S500000x2x81_S81x128_S500000x2x128_2_0_01_1_n_n : DotDims S500000x2x81 S81x128 S500000x2x128 where
  lhsContracting := [2]
  rhsContracting := [0]
  lhsNonContracting := [0, 1]
  rhsNonContracting := [1]
  lhsBatch := []
  rhsBatch := []
  wf := dot_S500000x2x81_S81x128_S500000x2x128_2_0_01_1_n_n_wf
def dot_S500000x81_S81x128_S500000x128_1_0_0_1_n_n : DotDims S500000x81 S81x128 S500000x128 where
  lhsContracting := [1]
  rhsContracting := [0]
  lhsNonContracting := [0]
  rhsNonContracting := [1]
  lhsBatch := []
  rhsBatch := []
  wf := dot_S500000x81_S81x128_S500000x128_1_0_0_1_n_n_wf

class Facts : Prop extends Facts₀ where

variable [Facts]
-- ==== Proof.LibLastAxis.lean ====
/-
  Layout operations of rank-3 arrays read at an index given by coordinates, where the operation acts on the LAST
  axis (a slice of the feature axis, a two-piece concatenation along it, a broadcast of one value over it, a lane
  sum over it) or on the MIDDLE axis (a row broadcast over it, a sum over it), and the two shape casts that merge the
  two leading axes of an `[a, b, c]` array into one of extent `a * b` and split it again. Each lemma is the library's
  generic read of the operation (Lib/Pipeline/Value.lean, PureOps/Ideal/Laws.lean) with the index arithmetic of that
  rank and axis discharged, so that it applies to a printed operation by unification, at any extents.
-/
import Idealize.ShloMosaic.Lib.Pipeline.Value
import Idealize.ShloMosaic.Lib.ValueIdx
import Idealize.ShloMosaic.PureOps.Ideal.Laws

open scoped BigOperators

namespace Idealize.ShloMosaic.LastAxis

open Idealize.ShloMosaic Idealize.ShloMosaic.ValueIdx

variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array broadcast to `[a, b, c]` reads, at `(i, k, j)`, the operand at `(i, 0, j)`. -/
theorem broadcastTo_a1c_abc_apply {a b c : ℕ} (ha : a ≠ 1) (hc : c ≠ 1) (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ => show i.val = if a = 1 then 0 else i.val; rw [if_neg ha]
  | ⟨1, _⟩ => show (0 : ℕ) = if (1 : ℕ) = 1 then 0 else k.val; rw [if_pos rfl]
  | ⟨2, _⟩ => show j.val = if c = 1 then 0 else j.val; rw [if_neg hc]

/-- An `[a, b]` array cast to `[a, b, 1]` reads, at `(i, k, u)`, the operand at `(i, k)`. -/
theorem shapeCast_ab_ab1_apply {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An `[a, b, 1]` array broadcast to `[a, b, c]` reads, at `(i, k, j)`, the operand at `(i, k, 0)`. -/
theorem broadcastTo_ab1_abc_apply {a b c : ℕ} (ha : a ≠ 1) (hb : b ≠ 1) (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ => show i.val = if a = 1 then 0 else i.val; rw [if_neg ha]
  | ⟨1, _⟩ => show k.val = if b = 1 then 0 else k.val; rw [if_neg hb]
  | ⟨2, _⟩ => show (0 : ℕ) = if (1 : ℕ) = 1 then 0 else j.val; rw [if_pos rfl]

/-- An `[a, b, c]` array cast to `[a * b, c]` (given as `ab` with `ab = a * b` in the shape fact) reads, at `(r, j)`
    with `r = i * b + k`, the operand at `(i, k, j)`. -/
theorem shapeCast_abc_mc_apply {a b c ab : ℕ} (x : (⟨3, ![a, b, c]⟩ : Shape).Idx → α)
    (h : (⟨3, ![a, b, c]⟩ : Shape).ShapeCasts ⟨2, ![ab, c]⟩) (r : Fin ab) (j : Fin c) (i : Fin a) (k : Fin b)
    (hr : r.val = i.val * b + k.val) :
    shapeCast ⟨2, ![ab, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[a * b, c]` array cast to `[a, b, c]` reads, at `(i, k, j)`, the operand at `(r, j)` with `r = i * b + k`. -/
theorem shapeCast_mc_abc_apply {a b c ab : ℕ} (x : (⟨2, ![ab, c]⟩ : Shape).Idx → α)
    (h : (⟨2, ![ab, c]⟩ : Shape).ShapeCasts ⟨3, ![a, b, c]⟩) (i : Fin a) (k : Fin b) (j : Fin c) (r : Fin ab)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- A concatenation of two pieces along the last axis of a rank-3 array reads, where the coordinate on that axis is
    below the first piece's extent, the first piece at the same coordinates. -/
theorem concat2_axis2_left {a b c c1 c2 : ℕ} (x1 : (⟨3, ![a, b, c1]⟩ : Shape).Idx → α) (x2 : (⟨3, ![a, b, c2]⟩ : Shape).Idx → α)
    (h : Shape.Concatenates [(⟨3, ![a, b, c1]⟩ : Shape), ⟨3, ![a, b, c2]⟩] ⟨3, ![a, b, c]⟩ 2)
    (i : Fin a) (k : Fin b) (j : Fin c) (j1 : Fin c1) (hj : j1.val = j.val) :
    concatenate ⟨3, ![a, b, c]⟩ 2 [⟨⟨3, ![a, b, c1]⟩, x1⟩, ⟨⟨3, ![a, b, c2]⟩, x2⟩] h (ix3 i k j) = x1 (ix3 i k j1) :=
  concatenate_apply_piece (t := ⟨3, ![a, b, c]⟩) 2 [⟨⟨3, ![a, b, c1]⟩, x1⟩, ⟨⟨3, ![a, b, c2]⟩, x2⟩] h (ix3 i k j) 0
    (by show (0 : ℕ) < 2; omega) _ x1 rfl rfl 0 rfl (ix3 i k j1)
    (fun ax => match ax with
      | ⟨0, _⟩ => fun _ => rfl
      | ⟨1, _⟩ => fun _ => rfl
      | ⟨2, _⟩ => fun hne => absurd rfl hne)
    (by show 0 + j1.val = j.val; rw [Nat.zero_add, hj])

/-- The same concatenation reads, where the coordinate on the last axis is at or past the first piece's extent, the
    second piece at that coordinate less the extent. -/
theorem concat2_axis2_right {a b c c1 c2 : ℕ} (x1 : (⟨3, ![a, b, c1]⟩ : Shape).Idx → α) (x2 : (⟨3, ![a, b, c2]⟩ : Shape).Idx → α)
    (h : Shape.Concatenates [(⟨3, ![a, b, c1]⟩ : Shape), ⟨3, ![a, b, c2]⟩] ⟨3, ![a, b, c]⟩ 2)
    (i : Fin a) (k : Fin b) (j : Fin c) (j2 : Fin c2) (hj : c1 + j2.val = j.val) :
    concatenate ⟨3, ![a, b, c]⟩ 2 [⟨⟨3, ![a, b, c1]⟩, x1⟩, ⟨⟨3, ![a, b, c2]⟩, x2⟩] h (ix3 i k j) = x2 (ix3 i k j2) :=
  concatenate_apply_piece (t := ⟨3, ![a, b, c]⟩) 2 [⟨⟨3, ![a, b, c1]⟩, x1⟩, ⟨⟨3, ![a, b, c2]⟩, x2⟩] h (ix3 i k j) 1
    (by show (1 : ℕ) < 2; omega) _ x2 rfl rfl c1 rfl (ix3 i k j2)
    (fun ax => match ax with
      | ⟨0, _⟩ => fun _ => rfl
      | ⟨1, _⟩ => fun _ => rfl
      | ⟨2, _⟩ => fun hne => absurd rfl hne)
    hj

/-- At the ideal values a lane sum over the LAST axis of an `[a, b, c]` vector is, at `(i, k)`, the sum over `d` of the
    vector at `(i, k, d)`. -/
theorem multiReduction_add_axis2_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (k : Fin b) :
    multiReduction .add [2] ⟨2, ![a, b]⟩ src acc h hφ hacc (ix2 i k) = ∑ d : Fin c, src (ix3 i k d) :=
  (Ideal.multiReduction_add_single src acc h hφ hacc (ix2 i k)).trans
    (Finset.sum_congr rfl fun d _ => congrArg src (funext fun ax => Fin.ext (by
      match ax with
      | ⟨0, _⟩ => rfl
      | ⟨1, _⟩ => rfl
      | ⟨2, _⟩ => rfl)))

/-- At the ideal values a sum over the MIDDLE axis of an `[a, b, c]` vector is, at `(i, j)`, the sum over `k` of the
    vector at `(i, k, j)`. -/
theorem multiReduction_add_axis1_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (funext fun ax => Fin.ext (by
      match ax with
      | ⟨0, _⟩ => rfl
      | ⟨1, _⟩ => rfl
      | ⟨2, _⟩ => rfl)))

end Idealize.ShloMosaic.LastAxis
-- ==== Proof.RowSpec.lean ====
/-
  The mathematics of one output row of the graph-convolution layer, on the extended reals.

  For an atom with feature row `a : Fin 81 → EReal` and, for each of its two neighbour slots `k`, the gathered
  neighbour row `b k`, the layer forms a MESSAGE per slot: the first three features (coordinates) of the message are the
  neighbour's, the other seventy-eight are the atom's plus the neighbour's (`comb`); the whole message is multiplied by
  one number (`scale`): with `r` the Euclidean distance of the two coordinate triples, `1 / max(r, 0.001)²` when
  `r > 0` and `1` otherwise. The output entry `c` is the atom's row times column `c` of the self weights, plus the sum
  over the VALID slots of the message times column `c` of the neighbour weights.

  The two programs differ in where validity enters. The reference forms every slot's product and then SELECTS it or
  zero by the slot's validity bit (`rowOut`); the kernel multiplies every entry of the message by the bit read as the
  number 0 or 1 before the product (`rowOutK`). The two agree (`rowOutK_mask`) because on the extended reals
  `x * 1 = x`, `x * 0 = 0` and `0 * w = 0` hold for EVERY `x` and `w`, the infinities included: no finiteness is used.
-/
import Idealize.ShloMosaic.PureOps.Ideal
import Idealize.ShloMosaic.PureOps.Ideal.Laws
import Idealize.ShloMosaic.Lib.ValueIdx

open scoped BigOperators

noncomputable section

namespace Cert.RowSpec

open Idealize.ShloMosaic Idealize.ShloMosaic.ValueIdx

/-- A coordinate feature, as one of the eighty-one. -/
abbrev lo (d : Fin 3) : Fin 81 := ⟨d.val, by omega⟩

/-- The weight matrices' shape. -/
abbrev W : Shape := ⟨2, ![81, 128]⟩

/-- The squared distance of the coordinate triples of an atom's row and a neighbour's row. -/
def dist2 (a b : Fin 81 → EReal) : EReal := ∑ d : Fin 3, (a (lo d) - b (lo d)) * (a (lo d) - b (lo d))

/-- Their distance. -/
def rowDist (a b : Fin 81 → EReal) : EReal := Ideal.sqrt (dist2 a b)

/-- The message's factor: `1 / max(r, 0.001)²` where the distance `r` is positive, else `1` (the literals are the f32
    words of `0`, `1` and `0.001`, the same on both sides, and are never evaluated). -/
def scale (a b : Fin 81 → EReal) : EReal :=
  Scalar.select (Ideal.cmp .ogt (rowDist a b) (Ideal.ofBits .f32 0x00000000#32))
    (Ideal.div (Ideal.ofBits .f32 0x3F800000#32)
      (max (rowDist a b) (Ideal.ofBits .f32 0x3A83126F#32) * max (rowDist a b) (Ideal.ofBits .f32 0x3A83126F#32)))
    (Ideal.ofBits .f32 0x3F800000#32)

/-- The combined features: the neighbour's coordinates, then atom plus neighbour. -/
def comb (a b : Fin 81 → EReal) (f : Fin 81) : EReal := if f.val < 3 then b f else a f + b f

/-- One slot's message. -/
def rowMsg (a b : Fin 81 → EReal) (f : Fin 81) : EReal := comb a b f * scale a b

/-- The output entry as the reference computes it: a slot's product is kept or replaced by zero by its validity bit. -/
def rowOut (a : Fin 81 → EReal) (b : Fin 2 → Fin 81 → EReal) (v : Fin 2 → BitVec 1) (ws wn : W.Idx → EReal) (c : Fin 128) : EReal :=
  (∑ f : Fin 81, a f * ws (ix2 f c)) + ∑ k : Fin 2, Scalar.select (v k) (∑ f : Fin 81, rowMsg a (b k) f * wn (ix2 f c)) 0

/-- The output entry as the kernel computes it: every entry of a slot's message is multiplied by the slot's validity,
    a number, before the product. -/
def rowOutK (a : Fin 81 → EReal) (b : Fin 2 → Fin 81 → EReal) (v : Fin 2 → EReal) (ws wn : W.Idx → EReal) (c : Fin 128) : EReal :=
  (∑ f : Fin 81, a f * ws (ix2 f c)) + ∑ k : Fin 2, ∑ f : Fin 81, (rowMsg a (b k) f * v k) * wn (ix2 f c)

/-- A validity bit read as a number is `0` or `1`. -/
theorem uitofp_zero : FloatOps.uitofp (F := Ideal) .f32 (0#1 : BitVec 1) = 0 := by
  show (((0#1 : BitVec 1).toNat : ℝ) : EReal) = 0
  simp
theorem uitofp_one : FloatOps.uitofp (F := Ideal) .f32 (1#1 : BitVec 1) = 1 := by
  show (((1#1 : BitVec 1).toNat : ℝ) : EReal) = 1
  simp

/-- MASKING BEFORE THE PRODUCT IS SELECTING AFTER IT: with the validity bits read as the numbers 0 and 1, the kernel's
    form is the reference's. A cleared bit zeroes every term of the slot's sum (`x * 0 = 0`, `0 * w = 0` on all of
    `EReal`), a set bit leaves them (`x * 1 = x`). -/
theorem rowOutK_mask (a : Fin 81 → EReal) (b : Fin 2 → Fin 81 → EReal) (v : Fin 2 → BitVec 1) (ws wn : W.Idx → EReal) (c : Fin 128) :
    rowOutK a b (fun k => FloatOps.uitofp (F := Ideal) .f32 (v k)) ws wn c = rowOut a b v ws wn c := by
  unfold rowOutK rowOut
  refine congrArg (_ + ·) (Finset.sum_congr rfl fun k _ => ?_)
  show ∑ f : Fin 81, rowMsg a (b k) f * FloatOps.uitofp (F := Ideal) .f32 (v k) * wn (ix2 f c) = _
  rcases BitVec.eq_zero_or_eq_one (v k) with h | h
  · rw [h, uitofp_zero, select_zero]
    exact Finset.sum_eq_zero fun f _ => by rw [mul_zero, zero_mul]
  · rw [h, uitofp_one, select_one]
    exact Finset.sum_congr rfl fun f _ => by rw [mul_one]

end Cert.RowSpec

end
-- ==== Proof.KernelRow.lean ====
/-
  The kernel body's arithmetic, read at one entry of the output block.

  The body loads the point's block of atom rows `X0 : [2000, 81]`, of gathered neighbour rows `X1 : [2000, 2, 81]`, of
  validities `X2 : [2000, 2]` (the numbers 0 and 1) and the two weight matrices, and stores one `[2000, 128]` value. Its
  entry `(p, c)` depends on row `p` of each block only: it is `RowSpec.rowOutK` of that row of `X0`, the two rows
  `X1 (p, k, ·)`, the two validities `X2 (p, k)` and column `c` of the weights (`pay_apply`). The steps are the body's own:
  the coordinate and rest slices of both blocks, re-laid over the slot axis; the squared distance as a lane sum; the
  factor; the concatenation; the two products by factor and validity; the `[2000, 2, 81] → [4000, 81]` cast, under which
  row `2p + k` of the matrix product is slot `k` of atom `p`; the sum over the two slots; the self product; their sum.
  Format changes are the identity at the ideal values, and a matrix product into a zero accumulator is the plain sum
  over the contracted feature axis.
-/
import proofs.«136626_j78271484002763_1_alg».proof.Proof.Gen.KernelIdeal.Skeleton
import proofs.«136626_j78271484002763_1_alg».proof.Proof.LibLastAxis
import proofs.«136626_j78271484002763_1_alg».proof.Proof.RowSpec
import Idealize.ShloMosaic.Lib.ValueLayout

open scoped BigOperators

noncomputable section

namespace Cert.KernelIdeal.Row

open Cert.KernelIdeal Cert.KernelIdeal.Gen Idealize.ShloMosaic Idealize.ShloMosaic.ValueIdx Idealize.ShloMosaic.LastAxis Cert.RowSpec

/-! ## The two matrix products at an entry -/

theorem lhsN_0 (i : S4000x128.Idx) (q : dot_S4000x81_S81x128_S4000x128_1_0_0_1_n_n.contr.Idx) :
    (dot_S4000x81_S81x128_S4000x128_1_0_0_1_n_n.lhsIdx i q 0).val = (i 0).val := by
  unfold DotDims.lhsIdx
  rw [dif_neg (show ¬(0 : Fin S4000x81.rank) ∈ dot_S4000x81_S81x128_S4000x128_1_0_0_1_n_n.lhsBatch by decide), dif_pos (show (0 : Fin S4000x81.rank) ∈ dot_S4000x81_S81x128_S4000x128_1_0_0_1_n_n.lhsNonContracting by decide)]
  rfl
theorem lhsN_1 (i : S4000x128.Idx) (q : dot_S4000x81_S81x128_S4000x128_1_0_0_1_n_n.contr.Idx) :
    (dot_S4000x81_S81x128_S4000x128_1_0_0_1_n_n.lhsIdx i q 1).val = (q ⟨0, by decide⟩).val :=
  dot_S4000x81_S81x128_S4000x128_1_0_0_1_n_n.lhsIdx_val_of_single rfl i q
theorem rhsN_0 (i : S4000x128.Idx) (q : dot_S4000x81_S81x128_S4000x128_1_0_0_1_n_n.contr.Idx) :
    (dot_S4000x81_S81x128_S4000x128_1_0_0_1_n_n.rhsIdx i q 0).val = (q ⟨0, by decide⟩).val :=
  dot_S4000x81_S81x128_S4000x128_1_0_0_1_n_n.rhsIdx_val_of_single rfl i q
theorem rhsN_1 (i : S4000x128.Idx) (q : dot_S4000x81_S81x128_S4000x128_1_0_0_1_n_n.contr.Idx) :
    (dot_S4000x81_S81x128_S4000x128_1_0_0_1_n_n.rhsIdx i q 1).val = (i 1).val := by
  unfold DotDims.rhsIdx
  rw [dif_neg (show ¬(1 : Fin S81x128.rank) ∈ dot_S4000x81_S81x128_S4000x128_1_0_0_1_n_n.rhsBatch by decide), dif_pos (show (1 : Fin S81x128.rank) ∈ dot_S4000x81_S81x128_S4000x128_1_0_0_1_n_n.rhsNonContracting by decide)]
  rfl

/-- The neighbour product `[4000, 81] × [81, 128]` into zero, at `(r, c)`: the sum over the features. -/
theorem matmulN_apply (L : FVec Ideal S4000x81 .bf16) (R : FVec Ideal S81x128 .bf16) (r : Fin 4000) (c : Fin 128) :
    matmul dot_S4000x81_S81x128_S4000x128_1_0_0_1_n_n none L R (constant (F := Ideal) S4000x128 .f32 0x00000000#32) (ix2 r c)
      = ∑ f : Fin 81, L (ix2 r f) * R (ix2 f c) := by
  simp only [matmul]
  rw [Ideal.matmul_constant_zero_apply, ← Equiv.sum_comp (contrEquiv1 dot_S4000x81_S81x128_S4000x128_1_0_0_1_n_n 81 rfl rfl).symm]
  refine Finset.sum_congr rfl fun k _ => ?_
  have hk := contrEquiv1_symm_val dot_S4000x81_S81x128_S4000x128_1_0_0_1_n_n 81 rfl rfl k
  have el : dot_S4000x81_S81x128_S4000x128_1_0_0_1_n_n.lhsIdx (ix2 r c) ((contrEquiv1 dot_S4000x81_S81x128_S4000x128_1_0_0_1_n_n 81 rfl rfl).symm k) = ix2 r k := funext fun a => Fin.ext (by
    match a with
    | ⟨0, _⟩ => exact lhsN_0 _ _
    | ⟨1, _⟩ => exact (lhsN_1 _ _).trans hk)
  have er : dot_S4000x81_S81x128_S4000x128_1_0_0_1_n_n.rhsIdx (ix2 r c) ((contrEquiv1 dot_S4000x81_S81x128_S4000x128_1_0_0_1_n_n 81 rfl rfl).symm k) = ix2 k c := funext fun a => Fin.ext (by
    match a with
    | ⟨0, _⟩ => exact (rhsN_0 _ _).trans hk
    | ⟨1, _⟩ => exact rhsN_1 _ _)
  rw [el, er]

theorem lhsS_0 (i : S2000x128.Idx) (q : dot_S2000x81_S81x128_S2000x128_1_0_0_1_n_n.contr.Idx) :
    (dot_S2000x81_S81x128_S2000x128_1_0_0_1_n_n.lhsIdx i q 0).val = (i 0).val := by
  unfold DotDims.lhsIdx
  rw [dif_neg (show ¬(0 : Fin S2000x81.rank) ∈ dot_S2000x81_S81x128_S2000x128_1_0_0_1_n_n.lhsBatch by decide), dif_pos (show (0 : Fin S2000x81.rank) ∈ dot_S2000x81_S81x128_S2000x128_1_0_0_1_n_n.lhsNonContracting by decide)]
  rfl
theorem lhsS_1 (i : S2000x128.Idx) (q : dot_S2000x81_S81x128_S2000x128_1_0_0_1_n_n.contr.Idx) :
    (dot_S2000x81_S81x128_S2000x128_1_0_0_1_n_n.lhsIdx i q 1).val = (q ⟨0, by decide⟩).val :=
  dot_S2000x81_S81x128_S2000x128_1_0_0_1_n_n.lhsIdx_val_of_single rfl i q
theorem rhsS_0 (i : S2000x128.Idx) (q : dot_S2000x81_S81x128_S2000x128_1_0_0_1_n_n.contr.Idx) :
    (dot_S2000x81_S81x128_S2000x128_1_0_0_1_n_n.rhsIdx i q 0).val = (q ⟨0, by decide⟩).val :=
  dot_S2000x81_S81x128_S2000x128_1_0_0_1_n_n.rhsIdx_val_of_single rfl i q
theorem rhsS_1 (i : S2000x128.Idx) (q : dot_S2000x81_S81x128_S2000x128_1_0_0_1_n_n.contr.Idx) :
    (dot_S2000x81_S81x128_S2000x128_1_0_0_1_n_n.rhsIdx i q 1).val = (i 1).val := by
  unfold DotDims.rhsIdx
  rw [dif_neg (show ¬(1 : Fin S81x128.rank) ∈ dot_S2000x81_S81x128_S2000x128_1_0_0_1_n_n.rhsBatch by decide), dif_pos (show (1 : Fin S81x128.rank) ∈ dot_S2000x81_S81x128_S2000x128_1_0_0_1_n_n.rhsNonContracting by decide)]
  rfl

/-- The self product `[2000, 81] × [81, 128]` into zero, at `(p, c)`: the sum over the features. -/
theorem matmulS_apply (L : FVec Ideal S2000x81 .bf16) (R : FVec Ideal S81x128 .bf16) (p : Fin 2000) (c : Fin 128) :
    matmul dot_S2000x81_S81x128_S2000x128_1_0_0_1_n_n none L R (constant (F := Ideal) S2000x128 .f32 0x00000000#32) (ix2 p c)
      = ∑ f : Fin 81, L (ix2 p f) * R (ix2 f c) := by
  simp only [matmul]
  rw [Ideal.matmul_constant_zero_apply, ← Equiv.sum_comp (contrEquiv1 dot_S2000x81_S81x128_S2000x128_1_0_0_1_n_n 81 rfl rfl).symm]
  refine Finset.sum_congr rfl fun k _ => ?_
  have hk := contrEquiv1_symm_val dot_S2000x81_S81x128_S2000x128_1_0_0_1_n_n 81 rfl rfl k
  have el : dot_S2000x81_S81x128_S2000x128_1_0_0_1_n_n.lhsIdx (ix2 p c) ((contrEquiv1 dot_S2000x81_S81x128_S2000x128_1_0_0_1_n_n 81 rfl rfl).symm k) = ix2 p k := funext fun a => Fin.ext (by
    match a with
    | ⟨0, _⟩ => exact lhsS_0 _ _
    | ⟨1, _⟩ => exact (lhsS_1 _ _).trans hk)
  have er : dot_S2000x81_S81x128_S2000x128_1_0_0_1_n_n.rhsIdx (ix2 p c) ((contrEquiv1 dot_S2000x81_S81x128_S2000x128_1_0_0_1_n_n 81 rfl rfl).symm k) = ix2 k c := funext fun a => Fin.ext (by
    match a with
    | ⟨0, _⟩ => exact (rhsS_0 _ _).trans hk
    | ⟨1, _⟩ => exact rhsS_1 _ _)
  rw [el, er]

/-! ## The slices of the two blocks, re-laid over the slot axis -/

variable (X0 : FVec Ideal S2000x81 .f32) (X1 : FVec Ideal S2000x2x81 .f32) (X2 : FVec Ideal S2000x2 .f32)

/-- The atom's coordinates, broadcast over the slots: feature `f` of row `p`, where `f` is coordinate `d`. -/
theorem selfCoord (h1 : S2000x81.Slices ![0, 0] S2000x3) (h2 : S2000x3.ShapeCasts S2000x1x3) (h3 : S2000x1x3.Broadcasts S2000x2x3)
    (p : Fin 2000) (k : Fin 2) (d : Fin 3) (f : Fin 81) (hf : f.val = 0 + d.val) :
    broadcastTo S2000x2x3 (shapeCast S2000x1x3 (extractStridedSlice S2000x3 ![0, 0] X0 h1) h2) h3 (ix3 p k d) = X0 (ix2 p f) := by
  refine (broadcastTo_a1c_abc_apply (by decide) (by decide) _ h3 p k d).trans ?_
  refine (shapeCast_ac_a1c_apply _ h2 p 0 d).trans ?_
  exact slice2_axis1_apply 0 X0 h1 p d f hf

/-- The atom's other features, broadcast over the slots: feature `f = 3 + e` of row `p`. -/
theorem selfRest (h1 : S2000x81.Slices ![0, 3] S2000x78) (h2 : S2000x78.ShapeCasts S2000x1x78) (h3 : S2000x1x78.Broadcasts S2000x2x78)
    (p : Fin 2000) (k : Fin 2) (e : Fin 78) (f : Fin 81) (hf : f.val = 3 + e.val) :
    broadcastTo S2000x2x78 (shapeCast S2000x1x78 (extractStridedSlice S2000x78 ![0, 3] X0 h1) h2) h3 (ix3 p k e) = X0 (ix2 p f) := by
  refine (broadcastTo_a1c_abc_apply (by decide) (by decide) _ h3 p k e).trans ?_
  refine (shapeCast_ac_a1c_apply _ h2 p 0 e).trans ?_
  exact slice2_axis1_apply 3 X0 h1 p e f hf

/-- The neighbour's coordinates in slot `k`. -/
theorem nbCoord (hs : S2000x2x81.ShapeCasts S2000x2x81) (h1 : S2000x2x81.Slices ![0, 0, 0] S2000x2x3)
    (p : Fin 2000) (k : Fin 2) (d : Fin 3) (f : Fin 81) (hf : f.val = 0 + d.val) :
    extractStridedSlice S2000x2x3 ![0, 0, 0] (shapeCast S2000x2x81 X1 hs) h1 (ix3 p k d) = X1 (ix3 p k f) := by
  rw [shapeCast_self]
  exact slice3_axis2_apply 0 X1 h1 p k d f hf

/-- The neighbour's other features in slot `k`. -/
theorem nbRest (hs : S2000x2x81.ShapeCasts S2000x2x81) (h1 : S2000x2x81.Slices ![0, 0, 3] S2000x2x78)
    (p : Fin 2000) (k : Fin 2) (e : Fin 78) (f : Fin 81) (hf : f.val = 3 + e.val) :
    extractStridedSlice S2000x2x78 ![0, 0, 3] (shapeCast S2000x2x81 X1 hs) h1 (ix3 p k e) = X1 (ix3 p k f) := by
  rw [shapeCast_self]
  exact slice3_axis2_apply 3 X1 h1 p k e f hf

/-! ## One slot's message at a feature -/

/-- The factor as the body computes it from the squared distances `D`: the printed operations, one per line of the
    body, over a variable in the lane sum's place. -/
abbrev scaleVec (D : FVec Ideal S2000x2 .f32) : FVec Ideal S2000x2 .f32 :=
  select (cmpf .ogt (sqrt D) (broadcast S2000x2 (Scalar.ofBits (F := Ideal) .f32 0x00000000#32)))
    (divf (broadcast S2000x2 (Scalar.ofBits (F := Ideal) .f32 0x3F800000#32))
      (mulf (maximumf (sqrt D) (broadcast S2000x2 (Scalar.ofBits (F := Ideal) .f32 0x3A83126F#32)))
        (maximumf (sqrt D) (broadcast S2000x2 (Scalar.ofBits (F := Ideal) .f32 0x3A83126F#32)))))
    (broadcast S2000x2 (Scalar.ofBits (F := Ideal) .f32 0x3F800000#32))

/-- Where the squared distance at `(p, k)` is the rows', the factor there is the rows' `scale`: every operation between
    them is read elementwise. -/
theorem scaleVec_apply (D : FVec Ideal S2000x2 .f32) (p : Fin 2000) (k : Fin 2) (a b : Fin 81 → EReal)
    (hD : D (ix2 p k) = dist2 a b) : scaleVec D (ix2 p k) = scale a b := by
  unfold scale rowDist
  rw [← hD]
  rfl

/-- The lane sum of the squared coordinate differences at `(p, k)` is the rows' squared distance, given what the two
    operands of the difference read there. -/
theorem dist2_apply (S N : FVec Ideal S2000x2x3 .f32) (hr : S2000x2x3.Reduces [2] S2000x2) (hφ : FKind.Formats .f32)
    (hacc : (0x00000000#32 : BitVec 32) = FKind.add.neutral .f32 hφ) (p : Fin 2000) (k : Fin 2) (a b : Fin 81 → EReal)
    (hS : ∀ d : Fin 3, S (ix3 p k d) = a (lo d)) (hN : ∀ d : Fin 3, N (ix3 p k d) = b (lo d)) :
    multiReduction .add [2] S2000x2 (mulf (subf S N) (subf S N)) 0x00000000#32 hr hφ hacc (ix2 p k) = dist2 a b := by
  refine (multiReduction_add_axis2_apply _ _ hr hφ hacc p k).trans ?_
  unfold dist2
  refine Finset.sum_congr rfl fun d _ => ?_
  show (S (ix3 p k d) - N (ix3 p k d)) * (S (ix3 p k d) - N (ix3 p k d)) = _
  rw [hS d, hN d]

/-- The concatenation of the neighbour's coordinates with the summed rest, at feature `f`, is the rows' `comb`, given
    what the two pieces read at `(p, k, ·)`. -/
theorem comb_apply (N3 : FVec Ideal S2000x2x3 .f32) (R78 : FVec Ideal S2000x2x78 .f32)
    (hc : Shape.Concatenates [S2000x2x3, S2000x2x78] S2000x2x81 2) (p : Fin 2000) (k : Fin 2) (f : Fin 81) (a b : Fin 81 → EReal)
    (hN : ∀ (d : Fin 3) (f' : Fin 81), f'.val = 0 + d.val → N3 (ix3 p k d) = b f')
    (hR : ∀ (e : Fin 78) (f' : Fin 81), f'.val = 3 + e.val → R78 (ix3 p k e) = a f' + b f') :
    concatenate S2000x2x81 2 [⟨S2000x2x3, N3⟩, ⟨S2000x2x78, R78⟩] hc (ix3 p k f) = comb a b f := by
  unfold comb
  by_cases h : f.val < 3
  · rw [if_pos h]
    refine (concat2_axis2_left N3 R78 hc p k f ⟨f.val, h⟩ rfl).trans ?_
    exact hN ⟨f.val, h⟩ f (Nat.zero_add _).symm
  · rw [if_neg h]
    have hf : f.val < 81 := f.isLt
    refine (concat2_axis2_right N3 R78 hc p k f ⟨f.val - 3, by omega⟩ (by show 3 + (f.val - 3) = f.val; omega)).trans ?_
    exact hR ⟨f.val - 3, by omega⟩ f (by show f.val = 3 + (f.val - 3); omega)

/-- A `[2000, 2]` value re-laid `[2000, 2, 1]` and broadcast over the features reads, at `(p, k, f)`, its entry `(p, k)`. -/
theorem overFeatures (Y : FVec Ideal S2000x2 .f32) (h1 : S2000x2.ShapeCasts S2000x2x1) (h2 : S2000x2x1.Broadcasts S2000x2x81)
    (p : Fin 2000) (k : Fin 2) (f : Fin 81) :
    broadcastTo S2000x2x81 (shapeCast S2000x2x1 Y h1) h2 (ix3 p k f) = Y (ix2 p k) := by
  refine (broadcastTo_ab1_abc_apply (by decide) (by decide) _ h2 p k f).trans ?_
  exact shapeCast_ab_ab1_apply Y h1 p k 0

/-! ## The body's two payloads at an entry -/

variable (X3 X4 : FVec Ideal S81x128 .f32)

/-- THE NEIGHBOUR SUM at `(p, c)`: over the two slots, the slot's message, each entry times the slot's validity, times
    column `c` of the neighbour weights. Row `2p + k` of the `[4000, 81]` operand is slot `k` of atom `p`. -/
theorem nbSum_apply (p : Fin 2000) (c : Fin 128) :
    k0_pay2 (F := Ideal) X0 X1 X2 X4 (ix2 p c)
      = ∑ k : Fin 2, ∑ f : Fin 81, (rowMsg (fun f => X0 (ix2 p f)) (fun f => X1 (ix3 p k f)) f * X2 (ix2 p k)) * X4 (ix2 f c) := by
  unfold k0_pay2
  dsimp only
  refine (multiReduction_add_axis1_apply _ _ _ _ _ p c).trans (Finset.sum_congr rfl fun k _ => ?_)
  have hp : p.val < 2000 := p.isLt
  have hk : k.val < 2 := k.isLt
  refine (shapeCast_mc_abc_apply _ _ p k c ⟨p.val * 2 + k.val, by omega⟩ rfl).trans ?_
  refine (matmulN_apply _ _ _ c).trans (Finset.sum_congr rfl fun f _ => ?_)
  rw [truncf_apply, truncf_apply]
  refine congrArg (· * X4 (ix2 f c)) ?_
  refine (shapeCast_abc_mc_apply _ _ ⟨p.val * 2 + k.val, by omega⟩ f p k rfl).trans ?_
  unfold rowMsg
  rw [mulf_apply, mulf_apply]
  refine congrArg₂ (· * ·) (congrArg₂ (· * ·) ?_ ?_) ?_
  · refine comb_apply _ _ _ p k f _ _ (fun d f' hf => ?_) (fun e f' hf => ?_)
    · exact nbCoord X1 _ _ p k d f' hf
    · exact congrArg₂ (· + ·) (selfRest X0 _ _ _ p k e f' hf) (nbRest X1 _ _ p k e f' hf)
  · refine (overFeatures _ _ _ p k f).trans ?_
    refine scaleVec_apply _ p k _ _ ?_
    refine dist2_apply _ _ _ _ _ p k _ _ (fun d => ?_) (fun d => ?_)
    · exact selfCoord X0 _ _ _ p k d (lo d) (Nat.zero_add _).symm
    · exact nbCoord X1 _ _ p k d (lo d) (Nat.zero_add _).symm
  · refine (overFeatures _ _ _ p k f).trans ?_
    rw [shapeCast_self]

/-- THE STORED VALUE at `(p, c)`: the self product plus the neighbour sum, which is the row's `rowOutK`. -/
theorem pay_apply (p : Fin 2000) (c : Fin 128) :
    k0_pay1 (F := Ideal) (k0_pay2 (F := Ideal) X0 X1 X2 X4) (k0_pay3 (F := Ideal) X0) X3 (ix2 p c)
      = rowOutK (fun f => X0 (ix2 p f)) (fun k f => X1 (ix3 p k f)) (fun k => X2 (ix2 p k)) X3 X4 c := by
  unfold k0_pay1 k0_pay3
  dsimp only
  rw [addf_apply, matmulS_apply, nbSum_apply]
  rfl

end Cert.KernelIdeal.Row

end
-- ==== Proof.KernelArray.lean ====
/-
  From the output blocks to the output array.

  The grid has 250 points; point `t` stages rows `2000 t … 2000 t + 1999` of the atoms, of the gathered neighbours and of
  the validities, and the two weight matrices whole, and writes back rows `2000 t … 2000 t + 1999` of the result. So
  entry `(p, c)` of what point `t` writes is the row function `RowSpec.rowOutK` of row `2000 t + p` of the arrays as the
  launch finds them (`flushed_eq`: the payload at an entry, `KernelRow.pay_apply`, over the block reads `blk0 … blk4`);
  the 250 blocks tile the `[500000, 128]` result (`cover`: row `r` lies in block `r / 2000`), hence the result array after
  the run is that one function of the arrays (`final`, `run`). The gathered neighbours and the validities are the host
  program's values before the launch; they are kept here as the arrays the launch finds.
-/
import proofs.«136626_j78271484002763_1_alg».proof.Proof.Gen.KernelIdeal.Value
import proofs.«136626_j78271484002763_1_alg».proof.Proof.KernelRow

open scoped BigOperators

noncomputable section

namespace Cert.KernelIdeal.Arr

open Cert.KernelIdeal Cert.KernelIdeal.Gen Cert.KernelIdeal.Value Idealize.ShloMosaic Idealize.ShloMosaic.TcCoe Idealize.SL.Sem
  Idealize.ShloMosaic.ValueIdx Cert.RowSpec
open Idealize.ShloMosaic.Pipeline (Dat)

variable (m : (ℓ : Loc nD τ sig) → Buf (Elt Ideal) ℓ) (ρ : Dev nD → PrngReg)

/-- The result as one function of the atoms `A`, the gathered neighbours `NB`, the validities `VF` (numbers) and the
    weights: entry `(n, c)` is the row function of row `n`. -/
def outArr (A : FVec Ideal S500000x81 .f32) (NB : FVec Ideal S500000x2x81 .f32) (VF : FVec Ideal S500000x2 .f32)
    (WS WN : FVec Ideal S81x128 .f32) : FVec Ideal S500000x128 .f32 :=
  fun i => rowOutK (fun f => A (ix2 (i 0) f)) (fun k f => NB (ix3 (i 0) k f)) (fun k => VF (ix2 (i 0) k)) WS WN (i 1)

/-- The arrays the launch finds, by their literal types. -/
abbrev atoms (c : Dev nD) : FVec Ideal S500000x81 .f32 := V m c main_arg0
abbrev nbs (c : Dev nD) : FVec Ideal S500000x2x81 .f32 := V m c main_v13
abbrev valid (c : Dev nD) : FVec Ideal S500000x2 .f32 := V m c main_v5
abbrev wself (c : Dev nD) : FVec Ideal S81x128 .f32 := V m c main_arg2
abbrev wnb (c : Dev nD) : FVec Ideal S81x128 .f32 := V m c main_arg3

/-- The point's input blocks, by their literal types. -/
abbrev B0 (c : Dev nD) (t : Fin cfg0.N) : FVec Ideal S2000x81 .f32 := iblk m c 0 t
abbrev B1 (c : Dev nD) (t : Fin cfg0.N) : FVec Ideal S2000x2x81 .f32 := iblk m c 1 t
abbrev B2 (c : Dev nD) (t : Fin cfg0.N) : FVec Ideal S2000x2 .f32 := iblk m c 2 t
abbrev B3 (c : Dev nD) (t : Fin cfg0.N) : FVec Ideal S81x128 .f32 := iblk m c 3 t
abbrev B4 (c : Dev nD) (t : Fin cfg0.N) : FVec Ideal S81x128 .f32 := iblk m c 4 t

theorem hz : (![0, 0] : Fin 2 → Nat) = fun _ => 0 := funext fun a => by fin_cases a <;> rfl

/-- The printed index maps over the grid: the row-blocked windows are at block `t` on the row axis and at block 0
    elsewhere; the weights are at block 0. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_N (t : Fin cfg0.N) : t.val < 250 := by
  have h : t.val < cfg0.N := t.isLt
  have hN : cfg0.N = 250 := N_0
  omega

/-- Row `p` of the atoms' block at point `t` is row `2000 t + p` of the atoms. -/
theorem blk0 (c : Dev nD) (t : Fin cfg0.N) (p : Fin 2000) (f : Fin 81) (n : Fin 500000) (hn : n.val = t.val * 2000 + p.val) :
    B0 m c t (ix2 p f) = atoms m c (ix2 n f) := by
  obtain ⟨e0, e1, -⟩ := idx_facts t
  show V m c main_arg0 (((cfg0.win 0).blk t).view.emb (ix2 p f)) = V m c main_arg0 (ix2 n f)
  refine congrArg (V m c main_arg0) (funext fun a => Fin.ext ?_)
  match a with
  | ⟨0, _⟩ => show win0_0.index t (0 : Fin 2) * 2000 + 1 * p.val = n.val; rw [e0, hn]; omega
  | ⟨1, _⟩ => show win0_0.index t (1 : Fin 2) * 81 + 1 * f.val = f.val; rw [e1]; omega

/-- Slot `k` of row `p` of the neighbours' block is slot `k` of row `2000 t + p` of the gathered neighbours. -/
theorem blk1 (c : Dev nD) (t : Fin cfg0.N) (p : Fin 2000) (k : Fin 2) (f : Fin 81) (n : Fin 500000) (hn : n.val = t.val * 2000 + p.val) :
    B1 m c t (ix3 p k f) = nbs m c (ix3 n k f) := by
  obtain ⟨-, -, e0, e1, e2, -⟩ := idx_facts t
  show V m c main_v13 (((cfg0.win 1).blk t).view.emb (ix3 p k f)) = V m c main_v13 (ix3 n k f)
  refine congrArg (V m c main_v13) (funext fun a => Fin.ext ?_)
  match a with
  | ⟨0, _⟩ => show win0_1.index t (0 : Fin 3) * 2000 + 1 * p.val = n.val; rw [e0, hn]; omega
  | ⟨1, _⟩ => show win0_1.index t (1 : Fin 3) * 2 + 1 * k.val = k.val; rw [e1]; omega
  | ⟨2, _⟩ => show win0_1.index t (2 : Fin 3) * 81 + 1 * f.val = f.val; rw [e2]; omega

/-- Likewise the validities. -/
theorem blk2 (c : Dev nD) (t : Fin cfg0.N) (p : Fin 2000) (k : Fin 2) (n : Fin 500000) (hn : n.val = t.val * 2000 + p.val) :
    B2 m c t (ix2 p k) = valid m c (ix2 n k) := by
  obtain ⟨-, -, -, -, -, e0, e1, -⟩ := idx_facts t
  show V m c main_v5 (((cfg0.win 2).blk t).view.emb (ix2 p k)) = V m c main_v5 (ix2 n k)
  refine congrArg (V m c main_v5) (funext fun a => Fin.ext ?_)
  match a with
  | ⟨0, _⟩ => show win0_2.index t (0 : Fin 2) * 2000 + 1 * p.val = n.val; rw [e0, hn]; omega
  | ⟨1, _⟩ => show win0_2.index t (1 : Fin 2) * 2 + 1 * k.val = k.val; rw [e1]; omega

/-- The weights' blocks are the weights. -/
theorem blk3 (c : Dev nD) (t : Fin cfg0.N) : B3 m c t = wself m c := by
  obtain ⟨-, -, -, -, -, -, -, e0, e1, -⟩ := idx_facts t
  funext j
  show V m c main_arg2 (((cfg0.win 3).blk t).view.emb j) = V m c main_arg2 j
  refine congrArg (V m c main_arg2) (funext fun a => Fin.ext ?_)
  match a with
  | ⟨0, _⟩ => show win0_3.index t (0 : Fin 2) * 81 + 1 * (j 0).val = (j 0).val; rw [e0]; omega
  | ⟨1, _⟩ => show win0_3.index t (1 : Fin 2) * 128 + 1 * (j 1).val = (j 1).val; rw [e1]; omega

theorem blk4 (c : Dev nD) (t : Fin cfg0.N) : B4 m c t = wnb m c := by
  obtain ⟨-, -, -, -, -, -, -, -, -, e0, e1, -⟩ := idx_facts t
  funext j
  show V m c main_arg3 (((cfg0.win 4).blk t).view.emb j) = V m c main_arg3 j
  refine congrArg (V m c main_arg3) (funext fun a => Fin.ext ?_)
  match a with
  | ⟨0, _⟩ => show win0_4.index t (0 : Fin 2) * 81 + 1 * (j 0).val = (j 0).val; rw [e0]; omega
  | ⟨1, _⟩ => show win0_4.index t (1 : Fin 2) * 128 + 1 * (j 1).val = (j 1).val; rw [e1]; omega

/-- The result array's function of the arrays the launch finds. -/
abbrev result (c : Dev nD) : FVec Ideal S500000x128 .f32 :=
  outArr (atoms m c) (nbs m c) (valid m c) (wself m c) (wnb m c)

/-- `rowOutK` depends on the rows, the slots' rows and the validities only through their entries. -/
theorem rowOutK_congr {a a' : Fin 81 → EReal} {b b' : Fin 2 → Fin 81 → EReal} {v v' : Fin 2 → EReal} (ws wn : W.Idx → EReal)
    (c : Fin 128) (ha : ∀ f, a f = a' f) (hb : ∀ k f, b k f = b' k f) (hv : ∀ k, v k = v' k) :
    rowOutK a b v ws wn c = rowOutK a' b' v' ws wn c := by
  rw [show a = a' from funext ha, show b = b' from funext fun k => funext (hb k), show v = v' from funext hv]

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S2000x81) hz, View.ld_unit_zero (S := S2000x2x81) (show (![0, 0, 0] : Fin 3 → Nat) = fun _ => 0 from funext fun a => by fin_cases a <;> rfl),
    View.ld_unit_zero (S := S2000x2) hz, View.ld_unit_zero (S := S81x128) hz]
  obtain ⟨-, -, -, -, -, -, -, -, -, -, -, e0, e1⟩ := idx_facts t
  have ht := lt_N t
  funext j
  obtain ⟨p, q, rfl⟩ : ∃ (p : Fin 2000) (q : Fin 128), j = ix2 p q := ⟨j 0, j 1, eq_ix2 j⟩
  show k0_pay1 (F := Ideal) (k0_pay2 (F := Ideal) (B0 m c t) (B1 m c t) (B2 m c t) (B4 m c t)) (k0_pay3 (F := Ideal) (B0 m c t)) (B3 m c t) (ix2 p q)
      = result m c (((cfg0.win 5).blk t).view.emb (ix2 p q))
  refine (Cert.KernelIdeal.Row.pay_apply (B0 m c t) (B1 m c t) (B2 m c t) (B3 m c t) (B4 m c t) p q).trans ?_
  have hp : p.val < 2000 := p.isLt
  have en : ((cfg0.win 5).blk t).view.emb (ix2 p q) = ix2 (⟨t.val * 2000 + p.val, by omega⟩ : Fin 500000) q :=
    funext fun a => Fin.ext (by
      match a with
      | ⟨0, _⟩ => show win0_5.index t (0 : Fin 2) * 2000 + 1 * p.val = t.val * 2000 + p.val; rw [e0]; omega
      | ⟨1, _⟩ => show win0_5.index t (1 : Fin 2) * 128 + 1 * q.val = q.val; rw [e1]; omega)
  rw [en]
  show _ = rowOutK (fun f => atoms m c (ix2 ⟨t.val * 2000 + p.val, _⟩ f)) (fun k f => nbs m c (ix3 ⟨t.val * 2000 + p.val, _⟩ k f))
      (fun k => valid m c (ix2 ⟨t.val * 2000 + p.val, _⟩ k)) (wself m c) (wnb m c) q
  rw [blk3 m c t, blk4 m c t]
  exact rowOutK_congr _ _ _ (fun f => blk0 m c t p f _ rfl) (fun k f => blk1 m c t p k f _ rfl) (fun k => blk2 m c t p k _ rfl)

/-- An index of the result is in point `t`'s block iff each coordinate is in the block's range on its axis. -/
theorem mem_blk (t : Fin cfg0.N) (i : S500000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v14).slice (win0_5.rect t)).set ↔ _
  rw [View.set_slice_whole, Rect.mem_set_unit]
  exact Iff.rfl

/-- THE BLOCKS TILE THE RESULT: row `r` is in the block of point `r / 2000`. -/
theorem cover (i : S500000x128.Idx) : ∃ t : Fin cfg0.N, (cfg0.win 5).flush t = true ∧ i ∈ ((cfg0.win 5).blk t).view.set := by
  have hi0 : (i 0).val < 500000 := (i 0).isLt
  have hi1 : (i 1).val < 128 := (i 1).isLt
  have hN : cfg0.N = 250 := N_0
  refine ⟨⟨(i 0).val / 2000, by rw [hN]; omega⟩, flush0_5 _, ?_⟩
  rw [mem_blk]
  obtain ⟨-, -, -, -, -, -, -, -, -, -, -, e0, e1⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]
    show (i 0).val / 2000 * 2000 ≤ (i 0).val ∧ (i 0).val < (i 0).val / 2000 * 2000 + 2000
    omega
  | ⟨1, _⟩ =>
    show win0_5.index _ (1 : Fin 2) * 128 ≤ (i 1).val ∧ (i 1).val < win0_5.index _ (1 : Fin 2) * 128 + 128
    rw [e1]
    omega

/-- THE RESULT ARRAY after the run is `result`. -/
theorem final (c : Dev nD) : (dats m 0 c).arrAt 5 cfg0.N = result m c :=
  (dats m 0 c).arrAt_eq_of_cover 5 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Arr

end
-- ==== Proof.RefRow.lean ====
/-
  The reference's result, read at one entry.

  The reference forms, over the whole `[500000, ·]` arrays, what the kernel forms block by block: the gathered neighbour
  rows `nb = atom_features[clip(idx)]` and the validity bits `0 < idx < 500000` (both left as the host terms they are: the
  kernel's program computes the same two arrays by the same operations before its launch), the squared distance of the
  coordinate triples as a host sum with initial value zero, the factor, the concatenated features, their product with
  the neighbour weights for every slot, the SELECTION of that product or zero by the slot's bit, the sum over the two slots
  (again from zero), and the self product. Entry `(n, c)` of the result is `RowSpec.rowOut` of row `n` of the atoms, the
  two rows `nb (n, k, ·)`, the two bits and column `c` of the weights (`out_apply`). Each step is the generated
  read-at-an-index lemma of its operation with the index written by coordinates; the concatenation, which has none, is
  read through the piece that holds the feature.
-/
import proofs.«136626_j78271484002763_1_alg».proof.Proof.Gen.ReferenceIdeal.Read
import proofs.«136626_j78271484002763_1_alg».proof.Proof.LibLastAxis
import proofs.«136626_j78271484002763_1_alg».proof.Proof.RowSpec

open scoped BigOperators

noncomputable section

namespace Cert.ReferenceIdeal.Row

open Cert.ReferenceIdeal Cert.ReferenceIdeal.Gen Cert.ReferenceIdeal.Read Idealize.ShloMosaic Idealize.ShloMosaic.ValueIdx
  Idealize.ShloMosaic.LastAxis Cert.RowSpec

variable (x0 : (⟨S500000x81, .f32⟩ : BufTy).Contents (Elt Ideal)) (x1 : (⟨S500000x2, .i32⟩ : BufTy).Contents (Elt Ideal))
  (x2 x3 : (⟨S81x128, .f32⟩ : BufTy).Contents (Elt Ideal))

/-- Row `n` of the atoms. -/
abbrev selfRow (n : Fin 500000) : Fin 81 → EReal := fun f => x0 (ix2 n f)
/-- The gathered neighbour row in slot `k` of atom `n`. -/
abbrev nbRow (n : Fin 500000) (k : Fin 2) : Fin 81 → EReal := fun f => val_main_v12 (F := Ideal) x0 x1 (ix3 n k f)

/-! ## The slices, read by coordinates -/

theorem selfCoord (n : Fin 500000) (k : Fin 2) (d : Fin 3) (f : Fin 81) (hf : f.val = 0 + d.val) :
    val_main_v16 (F := Ideal) x0 (ix3 n k d) = x0 (ix2 n f) := by
  rw [val_main_v16_apply, val_main_v14_apply, val_main_v13_apply]
  exact congrArg x0 (funext fun a => Fin.ext (by
    match a with
    | ⟨0, _⟩ => rfl
    | ⟨1, _⟩ => show d.val = f.val; omega))

theorem selfRest (n : Fin 500000) (k : Fin 2) (e : Fin 78) (f : Fin 81) (hf : f.val = 3 + e.val) :
    val_main_v24 (F := Ideal) x0 (ix3 n k e) = x0 (ix2 n f) := by
  rw [val_main_v24_apply, val_main_v22_apply, val_main_v13_apply]
  exact congrArg x0 (funext fun a => Fin.ext (by
    match a with
    | ⟨0, _⟩ => rfl
    | ⟨1, _⟩ => show 3 + e.val = f.val; omega))

theorem nbCoord (n : Fin 500000) (k : Fin 2) (d : Fin 3) (f : Fin 81) (hf : f.val = 0 + d.val) :
    val_main_v15 (F := Ideal) x0 x1 (ix3 n k d) = val_main_v12 (F := Ideal) x0 x1 (ix3 n k f) := by
  rw [val_main_v15_apply]
  exact congrArg (val_main_v12 (F := Ideal) x0 x1) (funext fun a => Fin.ext (by
    match a with
    | ⟨0, _⟩ => rfl
    | ⟨1, _⟩ => rfl
    | ⟨2, _⟩ => show d.val = f.val; omega))

theorem nbCoord' (n : Fin 500000) (k : Fin 2) (d : Fin 3) (f : Fin 81) (hf : f.val = 0 + d.val) :
    val_main_v21 (F := Ideal) x0 x1 (ix3 n k d) = val_main_v12 (F := Ideal) x0 x1 (ix3 n k f) := by
  rw [val_main_v21_apply]
  exact congrArg (val_main_v12 (F := Ideal) x0 x1) (funext fun a => Fin.ext (by
    match a with
    | ⟨0, _⟩ => rfl
    | ⟨1, _⟩ => rfl
    | ⟨2, _⟩ => show d.val = f.val; omega))

theorem nbRest (n : Fin 500000) (k : Fin 2) (e : Fin 78) (f : Fin 81) (hf : f.val = 3 + e.val) :
    val_main_v23 (F := Ideal) x0 x1 (ix3 n k e) = val_main_v12 (F := Ideal) x0 x1 (ix3 n k f) := by
  rw [val_main_v23_apply]
  exact congrArg (val_main_v12 (F := Ideal) x0 x1) (funext fun a => Fin.ext (by
    match a with
    | ⟨0, _⟩ => rfl
    | ⟨1, _⟩ => rfl
    | ⟨2, _⟩ => show 3 + e.val = f.val; omega))

/-! ## Distance, factor, combined features, message -/

/-- The host sum of the squared coordinate differences, from zero, is the rows' squared distance. -/
theorem dist2_apply (n : Fin 500000) (k : Fin 2) :
    val_main_v19 (F := Ideal) x0 x1 (ix2 n k) = dist2 (selfRow x0 n) (nbRow x0 x1 n k) := by
  rw [val_main_v19_apply]
  show Ideal.ofBits .f32 0x00000000#32 + _ = _
  rw [Ideal.ofBits_zero_f32, zero_add]
  unfold dist2
  refine Finset.sum_congr rfl fun d _ => ?_
  have e : idx_main_v19 (ix2 n k) d = ix3 n k d := funext fun a => Fin.ext (by
    match a with
    | ⟨0, _⟩ => rfl
    | ⟨1, _⟩ => rfl
    | ⟨2, _⟩ => rfl)
  rw [e]
  show (val_main_v16 (F := Ideal) x0 (ix3 n k d) - val_main_v15 (F := Ideal) x0 x1 (ix3 n k d))
      * (val_main_v16 (F := Ideal) x0 (ix3 n k d) - val_main_v15 (F := Ideal) x0 x1 (ix3 n k d)) = _
  rw [selfCoord x0 n k d (lo d) (Nat.zero_add _).symm, nbCoord x0 x1 n k d (lo d) (Nat.zero_add _).symm]

theorem zeroAt (i : S500000x2.Idx) : val_main_v27 (F := Ideal) i = Ideal.ofBits .f32 0x00000000#32 :=
  (val_main_v27_apply i).trans rfl
theorem floorAt (i : S500000x2.Idx) : val_main_v29 (F := Ideal) i = Ideal.ofBits .f32 0x3A83126F#32 :=
  (val_main_v29_apply i).trans rfl
theorem oneAt (i : S500000x2.Idx) : val_main_v32 (F := Ideal) i = Ideal.ofBits .f32 0x3F800000#32 :=
  (val_main_v32_apply i).trans rfl
theorem oneAt' (i : S500000x2.Idx) : val_main_call1_v1 (F := Ideal) i = Ideal.ofBits .f32 0x3F800000#32 :=
  (val_main_call1_v1_apply i).trans rfl

/-- The factor, broadcast over the features, is the rows' `scale`. -/
theorem scale_apply (n : Fin 500000) (k : Fin 2) (f : Fin 81) :
    val_main_v36 (F := Ideal) x0 x1 (ix3 n k f) = scale (selfRow x0 n) (nbRow x0 x1 n k) := by
  rw [val_main_v36_apply, val_main_v35_apply]
  have e : idx_main_v35 (idx_main_v36 (ix3 n k f)) = ix2 n k := funext fun a => Fin.ext (by
    match a with
    | ⟨0, _⟩ => rfl
    | ⟨1, _⟩ => rfl)
  rw [e]
  unfold scale rowDist
  rw [← dist2_apply x0 x1 n k]
  rw [val_main_v34_apply, val_main_v28_apply, val_main_v33_apply, val_main_v31_apply, val_main_v30_apply, val_main_v20_apply,
    zeroAt, floorAt, oneAt, oneAt']
  generalize val_main_v19 (F := Ideal) x0 x1 (ix2 n k) = D
  rfl

/-- The concatenated features at `f` are the rows' `comb`. -/
theorem comb_apply (n : Fin 500000) (k : Fin 2) (f : Fin 81) :
    val_main_v26 (F := Ideal) x0 x1 (ix3 n k f) = comb (selfRow x0 n) (nbRow x0 x1 n k) f := by
  unfold val_main_v26 comb
  by_cases h : f.val < 3
  · rw [if_pos h]
    refine (concat2_axis2_left _ _ _ n k f ⟨f.val, h⟩ rfl).trans ?_
    exact nbCoord' x0 x1 n k ⟨f.val, h⟩ f (Nat.zero_add _).symm
  · rw [if_neg h]
    have hf : f.val < 81 := f.isLt
    refine (concat2_axis2_right _ _ _ n k f ⟨f.val - 3, by omega⟩ (by show 3 + (f.val - 3) = f.val; omega)).trans ?_
    show val_main_v24 (F := Ideal) x0 (ix3 n k ⟨f.val - 3, _⟩) + val_main_v23 (F := Ideal) x0 x1 (ix3 n k ⟨f.val - 3, _⟩) = _
    rw [selfRest x0 n k ⟨f.val - 3, by omega⟩ f (by show f.val = 3 + (f.val - 3); omega),
      nbRest x0 x1 n k ⟨f.val - 3, by omega⟩ f (by show f.val = 3 + (f.val - 3); omega)]

/-- One slot's message at a feature. -/
theorem msg_apply (n : Fin 500000) (k : Fin 2) (f : Fin 81) :
    val_main_v37 (F := Ideal) x0 x1 (ix3 n k f) = rowMsg (selfRow x0 n) (nbRow x0 x1 n k) f := by
  rw [val_main_v37_apply]
  show val_main_v26 (F := Ideal) x0 x1 (ix3 n k f) * val_main_v36 (F := Ideal) x0 x1 (ix3 n k f) = _
  rw [comb_apply, scale_apply]
  rfl

/-! ## The result at an entry -/

/-- THE RESULT at `(n, c)` is the row's `rowOut`. -/
theorem out_apply (n : Fin 500000) (c : Fin 128) :
    val_main_v43 (F := Ideal) x0 x1 x2 x3 (ix2 n c)
      = rowOut (selfRow x0 n) (fun k => nbRow x0 x1 n k) (fun k => val_main_v4 (F := Ideal) x1 (ix2 n k)) x2 x3 c := by
  rw [val_main_v43_apply]
  unfold rowOut
  show val_main_v41 (F := Ideal) x0 x2 (ix2 n c) + val_main_v42 (F := Ideal) x0 x1 x3 (ix2 n c) = _
  refine congrArg₂ (· + ·) ?_ ?_
  · rw [val_main_v41_apply]
    refine Finset.sum_congr rfl fun f _ => ?_
    have el : lidx_main_v41 (ix2 n c) f = ix2 n f := funext fun a => Fin.ext (by
      match a with
      | ⟨0, _⟩ => rfl
      | ⟨1, _⟩ => rfl)
    have er : ridx_main_v41 (ix2 n c) f = ix2 f c := funext fun a => Fin.ext (by
      match a with
      | ⟨0, _⟩ => rfl
      | ⟨1, _⟩ => rfl)
    rw [el, er]
  · rw [val_main_v42_apply]
    show Ideal.ofBits .f32 0x00000000#32 + _ = _
    rw [Ideal.ofBits_zero_f32, zero_add]
    refine Finset.sum_congr rfl fun k _ => ?_
    have e : idx_main_v42 (ix2 n c) k = ix3 n k c := funext fun a => Fin.ext (by
      match a with
      | ⟨0, _⟩ => rfl
      | ⟨1, _⟩ => rfl
      | ⟨2, _⟩ => rfl)
    rw [e, val_main_v40_apply]
    refine congr (congrArg₂ Scalar.select ?_ ?_) ?_
    · rw [val_main_call2_v1_apply, val_main_v39_apply]
      exact congrArg (val_main_v4 (F := Ideal) x1) (funext fun a => Fin.ext (by
        match a with
        | ⟨0, _⟩ => rfl
        | ⟨1, _⟩ => rfl))
    · rw [val_main_v38_apply]
      refine Finset.sum_congr rfl fun f _ => ?_
      have el : lidx_main_v38 (ix3 n k c) f = ix3 n k f := funext fun a => Fin.ext (by
        match a with
        | ⟨0, _⟩ => rfl
        | ⟨1, _⟩ => rfl
        | ⟨2, _⟩ => rfl)
      have er : ridx_main_v38 (ix3 n k c) f = ix2 f c := funext fun a => Fin.ext (by
        match a with
        | ⟨0, _⟩ => rfl
        | ⟨1, _⟩ => rfl)
      rw [el, er, msg_apply]
    · rw [val_main_call2_v2_apply]
      exact Ideal.ofBits_zero_f32

end Cert.ReferenceIdeal.Row

end
-- ==== Proof.Bridge.lean ====
/-
  The two programs' results are one function of the arguments.

  Before its launch the kernel's program computes, on the host, the gathered neighbour rows and the validity bits by the
  very operations the reference uses (clip the indices into `[0, 499999]`, gather the rows; compare `0 < idx < 500000`),
  and converts the bits to the numbers 0 and 1 (`host_nbs`, `host_valid`: the arrays the launch finds are the
  reference's own stages of the same arguments). With that, entry `(n, c)` of the kernel's result is the kernel's row
  form `rowOutK` at the bits read as numbers, which is the reference's row form `rowOut` at the bits
  (`RowSpec.rowOutK_mask`: multiplying by 0 or 1 before the product is selecting after it), which is entry `(n, c)` of
  the reference's result (`RefRow.out_apply`): `result_eq`.
-/
import proofs.«136626_j78271484002763_1_alg».proof.Proof.KernelArray
import proofs.«136626_j78271484002763_1_alg».proof.Proof.RefRow
import Idealize.ShloMosaic.Lib.StableHlo.Run

noncomputable section

namespace Cert.Bridge

open Cert.KernelIdeal Cert.KernelIdeal.Gen Idealize.ShloMosaic Idealize.ShloMosaic.TcCoe Idealize.SL.Sem
  Idealize.ShloMosaic.ValueIdx Idealize.ShloMosaic.StableHlo Cert.RowSpec

variable (m : (ℓ : Loc nD τ sig) → Buf (Elt Ideal) ℓ)

/-- The gathered neighbour rows the launch finds are the reference's gather of the same arguments. -/
theorem host_nbs (c : Dev nD) :
    (V m c main_v13 : S500000x2x81.Idx → EReal)
      = Cert.ReferenceIdeal.Read.val_main_v12 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  rfl

/-- The validities the launch finds are the reference's validity bits of the same argument, read as numbers. -/
theorem host_valid (c : Dev nD) :
    (V m c main_v5 : S500000x2.Idx → EReal)
      = uitofp (F := Ideal) .f32 (Cert.ReferenceIdeal.Read.val_main_v4 (F := Ideal) (m ((c : Thread nD τ).loc main_arg1))) := by
  dsimp only [V]
  simp only [hostOps0, hostOps0_1, hostOps0_2, List.flatten_cons, List.flatten_nil, List.append_nil, List.cons_append,
    List.nil_append]
  after_results_simp
  rfl

/-- THE KERNEL'S RESULT ARRAY IS THE REFERENCE'S, as functions of the four arguments. -/
theorem result_eq (c : Dev nD) :
    Cert.KernelIdeal.Arr.result m c
      = Cert.ReferenceIdeal.Read.val_main_v43 (F := Ideal) (m ((c : Thread nD τ).loc main_arg0)) (m ((c : Thread nD τ).loc main_arg1))
          (m ((c : Thread nD τ).loc main_arg2)) (m ((c : Thread nD τ).loc main_arg3)) := by
  funext i
  obtain ⟨n, q, rfl⟩ : ∃ (n : Fin 500000) (q : Fin 128), i = ix2 n q := ⟨i 0, i 1, eq_ix2 i⟩
  rw [Cert.ReferenceIdeal.Row.out_apply, ← rowOutK_mask]
  show rowOutK (fun f => V m c main_arg0 (ix2 n f)) (fun k f => V m c main_v13 (ix3 n k f)) (fun k => V m c main_v5 (ix2 n k))
      (V m c main_arg2) (V m c main_arg3) q = _
  rw [V_main_arg0, V_main_arg2, V_main_arg3, host_nbs, host_valid]
  rfl

end Cert.Bridge

end
-- ==== Proof.lean ====
/-
  The certificate of the graph-convolution layer: the kernel against its reference, over the extended reals.

  The layer maps atom features `[500000, 81]`, two neighbour indices per atom, and two `[81, 128]` weight matrices to
  `atoms · w_s + Σ_k [slot k valid] · (message_k · w_n)`, where a slot's message is the neighbour's coordinates followed by
  atom-plus-neighbour features, divided by the squared (floored) distance of the coordinates when that distance is
  positive. The kernel gathers the neighbour rows on the host, then computes 2000 atoms per grid point: it multiplies each
  message by the slot's validity (0 or 1) BEFORE one `[4000, 81] × [81, 128]` product and adds the two slots' rows; the
  reference forms each slot's product and SELECTS it or zero by the validity bit. On the extended reals the two agree
  with no appeal to finiteness (`x * 1 = x`, `x * 0 = 0`, `0 * w = 0` hold at the infinities too): Proof/RowSpec.lean.

  Proof/KernelRow.lean reads the kernel body's stored value at an entry, Proof/KernelArray.lean carries it from the 250
  blocks to the result array, Proof/RefRow.lean reads the reference's result at an entry, Proof/Bridge.lean joins them.
  The three frames are the generated ones (the reference's is its run with the result dropped); the idealization
  rewrote nothing, so `preserves` is trivial.
-/
import proofs.«136626_j78271484002763_1_alg».proof.Defs
import proofs.«136626_j78271484002763_1_alg».proof.Proof.Gen.Kernel
import proofs.«136626_j78271484002763_1_alg».proof.Proof.Gen.Kernel.Skeleton
import proofs.«136626_j78271484002763_1_alg».proof.Proof.Gen.Kernel.Launch
import proofs.«136626_j78271484002763_1_alg».proof.Proof.Gen.Kernel.Points
import proofs.«136626_j78271484002763_1_alg».proof.Proof.Gen.Kernel.Frame
import proofs.«136626_j78271484002763_1_alg».proof.Proof.Gen.KernelIdeal
import proofs.«136626_j78271484002763_1_alg».proof.Proof.Gen.KernelIdeal.Skeleton
import proofs.«136626_j78271484002763_1_alg».proof.Proof.Gen.KernelIdeal.Launch
import proofs.«136626_j78271484002763_1_alg».proof.Proof.Gen.KernelIdeal.Points
import proofs.«136626_j78271484002763_1_alg».proof.Proof.Gen.KernelIdeal.Frame
import proofs.«136626_j78271484002763_1_alg».proof.Proof.Gen.ReferenceIdeal
import proofs.«136626_j78271484002763_1_alg».proof.Proof.Gen.Pre_finite_inputs
import proofs.«136626_j78271484002763_1_alg».proof.Proof.Gen.KernelIdeal.Value
import proofs.«136626_j78271484002763_1_alg».proof.Proof.Gen.ReferenceIdeal.Run
import proofs.«136626_j78271484002763_1_alg».proof.Proof.Gen.ReferenceIdeal.Read
import proofs.«136626_j78271484002763_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values both programs, run from memories that agree on the four arguments, end with the result array at
    one function of them: the kernel's by its run read block by block, the reference's by its run read stage by stage,
    the two functions equal entry by entry. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
